-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x128 : Shape := ⟨3, ![4, 4096, 128]⟩
abbrev S_ : Shape := ⟨0, ![]⟩

class Facts : Prop where
  bcast_S_S4x4096x128 : S_.BroadcastsInDim S4x4096x128 (![] : Fin 0 → Fin S4x4096x128.rank)
  reducesTo_S4x4096x128_S_d0_1_2 : S4x4096x128.ReducesTo [0, 1, 2] S_
  h_S_ : 0 < S_.numel

variable [Facts]

def fn {F : FTy → Type} [FloatOps F] (main_arg0 : FVec F S4x4096x128 .f32) (main_arg1 : FVec F S4x4096x128 .f32) : IVec S_ 1 :=
  let main_v0 : FVec F S4x4096x128 .f32 := Host.absf main_arg0
  let main_cst : FVec F S_ .f32 := constant S_ .f32 0x7F800000#32
  let main_v1 : FVec F S4x4096x128 .f32 := broadcastInDim S4x4096x128 ![] bcast_S_S4x4096x128 main_cst
  let main_v2 : IVec S4x4096x128 1 := cmpf .olt main_v0 main_v1
  let main_c : IVec S_ 1 := constantI S_ 1 1#1
  let main_v3 : IVec S_ 1 := (fun x v => Host.reduce IntOp.andi x v reducesTo_S4x4096x128_S_d0_1_2 h_S_) main_v2 main_c
  let main_v4 : FVec F S4x4096x128 .f32 := Host.absf main_arg1
  let main_cst_0 : FVec F S_ .f32 := constant S_ .f32 0x7F800000#32
  let main_v5 : FVec F S4x4096x128 .f32 := broadcastInDim S4x4096x128 ![] bcast_S_S4x4096x128 main_cst_0
  let main_v6 : IVec S4x4096x128 1 := cmpf .olt main_v4 main_v5
  let main_c_1 : IVec S_ 1 := constantI S_ 1 1#1
  let main_v7 : IVec S_ 1 := (fun x v => Host.reduce IntOp.andi x v reducesTo_S4x4096x128_S_d0_1_2 h_S_) main_v6 main_c_1
  let main_v8 : IVec S_ 1 := andi main_v3 main_v7
  main_v8
-- ==== Kernel.lean ====
abbrev S4x4096x128 : Shape := ⟨3, ![4, 4096, 128]⟩
abbrev S4x4096x1 : Shape := ⟨3, ![4, 4096, 1]⟩
abbrev S4x1x4096 : Shape := ⟨3, ![4, 1, 4096]⟩
abbrev S1x4096x128 : Shape := ⟨3, ![1, 4096, 128]⟩
abbrev S1x512x128 : Shape := ⟨3, ![1, 512, 128]⟩
abbrev S1x4096x1 : Shape := ⟨3, ![1, 4096, 1]⟩
abbrev S1x1x512 : Shape := ⟨3, ![1, 1, 512]⟩
abbrev S4096x128 : Shape := ⟨2, ![4096, 128]⟩
abbrev S512x128 : Shape := ⟨2, ![512, 128]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S1x512 : Shape := ⟨2, ![1, 512]⟩
abbrev S128x512 : Shape := ⟨2, ![128, 512]⟩
abbrev S4096x512 : Shape := ⟨2, ![4096, 512]⟩
abbrev S_ : Shape := ⟨0, ![]⟩

abbrev nBuf : Space → Nat
  | .hbm => 17
  | .vmem => 7
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x1, .f32⟩
  | .hbm, ⟨3, _⟩ => ⟨S4x1x4096, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1x4096x128, .f32⟩
  | .local _ .vmem, ⟨1, _⟩ => ⟨S1x512x128, .f32⟩
  | .local _ .vmem, ⟨2, _⟩ => ⟨S1x512x128, .f32⟩
  | .local _ .vmem, ⟨3, _⟩ => ⟨S1x4096x1, .f32⟩
  | .local _ .vmem, ⟨4, _⟩ => ⟨S1x4096x1, .f32⟩
  | .local _ .vmem, ⟨5, _⟩ => ⟨S1x1x512, .f32⟩
  | .local _ .vmem, ⟨6, _⟩ => ⟨S1x1x512, .f32⟩
  | _, _ => ⟨S4x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_cst_2 : Ref sig .tc := ⟨.hbm, 10, rfl⟩
abbrev main_v4 : Ref sig .tc := ⟨.hbm, 11, rfl⟩
abbrev main_v5 : Ref sig .tc := ⟨.hbm, 12, rfl⟩
abbrev main_cst_3 : Ref sig .tc := ⟨.hbm, 13, rfl⟩
abbrev main_v6 : Ref sig .tc := ⟨.hbm, 14, rfl⟩
abbrev main_cst_4 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1x4096x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x4096x128_S1x4096x128_0_0_0 : ∀ a, (![0, 0, 0] : Fin 3 → Nat) a + S1x4096x128.size a ≤ S1x4096x128.size a
  h_S1x4096x128 : 0 < S1x4096x128.numel
  shapeCasts_S1x4096x128_S4096x128 : S1x4096x128.ShapeCasts S4096x128
  inb_S1x512x128_S1x512x128_0_0_0 : ∀ a, (![0, 0, 0] : Fin 3 → Nat) a + S1x512x128.size a ≤ S1x512x128.size a
  h_S1x512x128 : 0 < S1x512x128.numel
  shapeCasts_S1x512x128_S512x128 : S1x512x128.ShapeCasts S512x128
  reduces_S4096x128_S4096 : S4096x128.Reduces [1] S4096
  shapeCasts_S4096_S4096x1 : S4096.ShapeCasts S4096x1
  reduces_S512x128_S512 : S512x128.Reduces [1] S512
  shapeCasts_S512_S512x1 : S512.ShapeCasts S512x1
  transposes_S512x1_p1_0_S1x512 : S512x1.Transposes [1, 0] S1x512
  bitsLt_bf16_f32 : FTy.bits .bf16 < FTy.bits .f32
  transposes_S512x128_p1_0_S128x512 : S512x128.Transposes [1, 0] S128x512
  broadcasts_S4096x1_S4096x512 : S4096x1.Broadcasts S4096x512
  broadcasts_S1x512_S4096x512 : S1x512.Broadcasts S4096x512
  reduces_S4096x512_S512 : S4096x512.Reduces [0] S512
  shapeCasts_S512_S1x512 : S512.ShapeCasts S1x512
  reduces_S4096x512_S4096 : S4096x512.Reduces [1] S4096
  inb_S1x4096x1_S1x4096x1_0_0_0 : ∀ a, (![0, 0, 0] : Fin 3 → Nat) a + S1x4096x1.size a ≤ S1x4096x1.size a
  h_S1x4096x1 : 0 < S1x4096x1.numel
  shapeCasts_S1x4096x1_S1x4096x1 : S1x4096x1.ShapeCasts S1x4096x1
  shapeCasts_S4096x1_S1x4096x1 : S4096x1.ShapeCasts S1x4096x1
  shapeCasts_S1x512_S1x1x512 : S1x512.ShapeCasts S1x1x512
  inb_S1x1x512_S1x1x512_0_0_0 : ∀ a, (![0, 0, 0] : Fin 3 → Nat) a + S1x1x512.size a ≤ S1x1x512.size a
  h_S1x1x512 : 0 < S1x1x512.numel
  reducesTo_S4x4096x1_S_d0_1_2 : S4x4096x1.ReducesTo [0, 1, 2] S_
  h_S_ : 0 < S_.numel
  reducesTo_S4x1x4096_S_d0_1_2 : S4x1x4096.ReducesTo [0, 1, 2] S_
  dot_S4096x128_S128x512_S4096x512_1_0_0_1_n_n_wf : DotDims.WF S4096x128 S128x512 S4096x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x4096x128.size a ≤ S4x4096x128.size a
  hwx0_0 : ∀ i : grid0.Coords, EltTy.bits .f32 = 32 ∨ (Rect.block (s := S4x4096x128) S1x4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x128.size a ≤ S4x4096x128.size a
  hwx0_1 : ∀ i : grid0.Coords, EltTy.bits .f32 = 32 ∨ (Rect.block (s := S4x4096x128) S1x512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x4096x1.size a ≤ S4x4096x1.size a
  hwx0_2 : ∀ i : grid0.Coords, EltTy.bits .f32 = 32 ∨ (Rect.block (s := S4x4096x1) S1x4096x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S4x1x4096.size a
  hwx0_3 : ∀ i : grid0.Coords, EltTy.bits .f32 = 32 ∨ (Rect.block (s := S4x1x4096) S1x1x512.size (cc0_transform_3 i) (hinb0_3 i)).WholeWords (EltTy.packing .f32)

variable [Facts₀]

def dot_S4096x128_S128x512_S4096x512_1_0_0_1_n_n : DotDims S4096x128 S128x512 S4096x512 where
  lhsContracting := [1]
  rhsContracting := [0]
  lhsNonContracting := [0]
  rhsNonContracting := [1]
  lhsBatch := []
  rhsBatch := []
  wf := dot_S4096x128_S128x512_S4096x512_1_0_0_1_n_n_wf

abbrev win0_0 : Pipeline.Window sig grid0 :=
  Pipeline.Window.ofSpec (Memref.whole main_arg0) S1x4096x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1x4096x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x1x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x4096x128 : Shape := ⟨3, ![4, 4096, 128]⟩
abbrev S_ : Shape := ⟨0, ![]⟩
abbrev S4x4096 : Shape := ⟨2, ![4, 4096]⟩
abbrev S4x4096x4096 : Shape := ⟨3, ![4, 4096, 4096]⟩
abbrev S4x4096x1 : Shape := ⟨3, ![4, 4096, 1]⟩
abbrev S4x1x4096 : Shape := ⟨3, ![4, 1, 4096]⟩

abbrev nBuf : Space → Nat
  | .hbm => 43
  | .vmem => 0
  | .smem => 0
  | _ => 0

abbrev bufTy : (tb : Table) → Fin (tcTables nBuf tb) → BufTy
  | .hbm, ⟨0, _⟩ => ⟨S4x4096x128, .f32⟩
  | .hbm, ⟨1, _⟩ => ⟨S4x4096x128, .f32⟩
  | .hbm, ⟨2, _⟩ => ⟨S4x4096x128, .f32⟩
  | .hbm, ⟨3, _⟩ => ⟨S_, .f32⟩
  | .hbm, ⟨4, _⟩ => ⟨S4x4096, .f32⟩
  | .hbm, ⟨5, _⟩ => ⟨S4x4096x128, .f32⟩
  | .hbm, ⟨6, _⟩ => ⟨S_, .f32⟩
  | .hbm, ⟨7, _⟩ => ⟨S4x4096, .f32⟩
  | .hbm, ⟨8, _⟩ => ⟨S4x4096x4096, .f32⟩
  | .hbm, ⟨9, _⟩ => ⟨S4x4096x1, .f32⟩
  | .hbm, ⟨10, _⟩ => ⟨S4x1x4096, .f32⟩
  | .hbm, ⟨11, _⟩ => ⟨S4x4096x4096, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096x4096, .f32⟩
  | .hbm, ⟨25, _⟩ => ⟨S4x4096x4096, .f32⟩
  | .hbm, ⟨26, _⟩ => ⟨S_, .f32⟩
  | .hbm, ⟨27, _⟩ => ⟨S4x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | _, _ => ⟨S4x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_cst_5 : Ref sig .tc := ⟨.hbm, 28, rfl⟩
abbrev main_v15 : Ref sig .tc := ⟨.hbm, 29, rfl⟩
abbrev main_cst_6 : Ref sig .tc := ⟨.hbm, 30, rfl⟩
abbrev main_v16 : Ref sig .tc := ⟨.hbm, 31, rfl⟩
abbrev main_cst_7 : Ref sig .tc := ⟨.hbm, 32, rfl⟩
abbrev main_v17 : Ref sig .tc := ⟨.hbm, 33, rfl⟩
abbrev main_cst_8 : Ref sig .tc := ⟨.hbm, 34, rfl⟩
abbrev main_v18 : Ref sig .tc := ⟨.hbm, 35, rfl⟩
abbrev main_cst_9 : Ref sig .tc := ⟨.hbm, 36, rfl⟩
abbrev main_v19 : Ref sig .tc := ⟨.hbm, 37, rfl⟩
abbrev main_v20 : Ref sig .tc := ⟨.hbm, 38, rfl⟩
abbrev main_cst_10 : Ref sig .tc := ⟨.hbm, 39, rfl⟩
abbrev main_v21 : Ref sig .tc := ⟨.hbm, 40, rfl⟩
abbrev main_cst_11 : Ref sig .tc := ⟨.hbm, 41, rfl⟩
abbrev main_v22 : Ref sig .tc := ⟨.hbm, 42, rfl⟩

abbrev nD : Nat := 1
abbrev τ : Topo := Topo.v7x

variable {F : FTy → Type} [FloatOps F]

class Facts₀ : Prop where
  reducesTo_S4x4096x128_S4x4096_d2 : S4x4096x128.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  reducesTo_S4x4096_S_d0_1 : S4x4096.ReducesTo [0, 1] S_
  reducesTo_S4x4096x4096_S4x4096_d2 : S4x4096x4096.ReducesTo [2] S4x4096
  dot_S4x4096x128_S4x4096x128_S4x4096x4096_2_2_1_1_0_0_wf : DotDims.WF S4x4096x128 S4x4096x128 S4x4096x4096 [2] [2] [1] [1] [0] [0]

variable [Facts₀]

def dot_S4x4096x128_S4x4096x128_S4x4096x4096_2_2_1_1_0_0 : DotDims S4x4096x128 S4x4096x128 S4x4096x4096 where
  lhsContracting := [2]
  rhsContracting := [2]
  lhsNonContracting := [1]
  rhsNonContracting := [1]
  lhsBatch := [0]
  rhsBatch := [0]
  wf := dot_S4x4096x128_S4x4096x128_S4x4096x4096_2_2_1_1_0_0_wf

class Facts : Prop extends Facts₀ where

variable [Facts]
-- ==== Proof.ChamferSpec.lean ====
/-
  The bidirectional chamfer loss as mathematics over the extended reals.

  Two clouds of 4096 points in 128 coordinates, four batches of each. For a point x_i of the first cloud and a
  point y_j of the second, the clipped squared distance is
      D(i, j) = min 100 (max 0 ((|x_i|^2 + |y_j|^2) - 2 * <x_i, y_j>)),
  the row minimum is the least D(i, j) over j, the column minimum the least over i, and the loss is the mean of the
  row minima plus the mean of the column minima, times one, over four. Every float word of the two program texts is
  kept as the word it is; the minima are taken below the word of plus infinity, as both programs take them.

  What is proved here is order theory only: a minimum taken tile by tile (eight tiles of 512 columns, each folded
  into a running minimum) is the minimum over all 4096 columns. It is stated by what lies below a value, so no
  re-indexing of 8 x 512 against 4096 is ever needed.
-/
import Idealize.ShloMosaic.PureOps.Ideal
import Idealize.ShloMosaic.PureOps.Ideal.Laws
import Idealize.ShloMosaic.Lib.ValueIdx
import Mathlib.Data.Finset.Fold

noncomputable section

open scoped BigOperators

namespace Chamfer

open Idealize.ShloMosaic Idealize.ShloMosaic.ValueIdx

/-- A cloud array: batch, point, coordinate. -/
abbrev Pts := (⟨3, ![4, 4096, 128]⟩ : Shape).Idx → EReal

/-- The float words the two programs share, each read exactly. -/
abbrev wZero : EReal := Ideal.ofBits .f32 0x00000000#32
abbrev wTwo : EReal := Ideal.ofBits .f32 0x40000000#32
abbrev wHundred : EReal := Ideal.ofBits .f32 0x42C80000#32
abbrev wInf : EReal := Ideal.ofBits .f32 0x7F800000#32
abbrev wCount : EReal := Ideal.ofBits .f32 0x46800000#32
abbrev wOne : EReal := Ideal.ofBits .f32 0x3F800000#32
abbrev wFour : EReal := Ideal.ofBits .f32 0x40800000#32

/-- The squared norm of point `i` of batch `b`. -/
def sqNorm (x : Pts) (b : Fin 4) (i : Fin 4096) : EReal := ∑ d : Fin 128, x (ix3 b i d) * x (ix3 b i d)

/-- The inner product of point `i` of the first cloud with point `j` of the second. -/
def inner (x y : Pts) (b : Fin 4) (i j : Fin 4096) : EReal := ∑ d : Fin 128, x (ix3 b i d) * y (ix3 b j d)

/-- The clipped squared distance between the two points. -/
def clipDist (x y : Pts) (b : Fin 4) (i j : Fin 4096) : EReal :=
  min wHundred (max wZero ((sqNorm x b i + sqNorm y b j) - wTwo * inner x y b i j))

/-- The least clipped distance from point `i` of the first cloud to the second cloud. -/
def rowMin (x y : Pts) (b : Fin 4) (i : Fin 4096) : EReal :=
  (Finset.univ : Finset (Fin 4096)).fold min wInf fun j => clipDist x y b i j

/-- The least clipped distance from point `j` of the second cloud to the first cloud. -/
def colMin (x y : Pts) (b : Fin 4) (j : Fin 4096) : EReal :=
  (Finset.univ : Finset (Fin 4096)).fold min wInf fun i => clipDist x y b i j

/-! ## A minimum taken tile by tile -/

/-- `a` is the minimum of the infinity word and of `f` over the indices below `n`, said by what lies below `a`. -/
def IsPrefixMin (f : Fin 4096 → EReal) (n : ℕ) (a : EReal) : Prop :=
  ∀ c : EReal, c ≤ a ↔ c ≤ wInf ∧ ∀ j : Fin 4096, j.val < n → c ≤ f j

/-- Before any tile the running minimum is the infinity word. -/
theorem IsPrefixMin.zero (f : Fin 4096 → EReal) : IsPrefixMin f 0 wInf :=
  fun c => ⟨fun h => ⟨h, fun j hj => absurd hj (Nat.not_lt_zero _)⟩, fun h => h.1⟩

/-- One more tile of 512: the running minimum met with the tile's own minimum (taken below the infinity word too). -/
theorem IsPrefixMin.step {f : Fin 4096 → EReal} {n : ℕ} {a : EReal} (h : IsPrefixMin f n a) (hn : n + 512 ≤ 4096)
    (g : Fin 512 → EReal) (hg : ∀ q : Fin 512, g q = f ⟨n + q.val, by have := q.isLt; omega⟩) :
    IsPrefixMin f (n + 512) (min a ((Finset.univ : Finset (Fin 512)).fold min wInf g)) := by
  intro c
  rw [le_min_iff, h c, Finset.le_fold_min]
  constructor
  · rintro ⟨⟨hc, hlo⟩, -, hhi⟩
    refine ⟨hc, fun j hj => ?_⟩
    by_cases hjn : j.val < n
    · exact hlo j hjn
    · have hq : j.val - n < 512 := by omega
      have := hhi ⟨j.val - n, hq⟩ (Finset.mem_univ _)
      rw [hg] at this
      have e : (⟨n + (j.val - n), by omega⟩ : Fin 4096) = j := Fin.ext (by show n + (j.val - n) = j.val; omega)
      rwa [e] at this
  · rintro ⟨hc, hall⟩
    refine ⟨⟨hc, fun j hj => hall j (by omega)⟩, hc, fun q _ => ?_⟩
    rw [hg]
    exact hall _ (by show n + q.val < n + 512; have := q.isLt; omega)

/-- The property is about the value, whatever term names it, -/
theorem IsPrefixMin.of_eq {f : Fin 4096 → EReal} {n : ℕ} {a a' : EReal} (e : a = a') (h : IsPrefixMin f n a') :
    IsPrefixMin f n a := e ▸ h

/-- and about the length, however it is written. -/
theorem IsPrefixMin.len_eq {f : Fin 4096 → EReal} {n n' : ℕ} {a : EReal} (h : IsPrefixMin f n a) (e : n = n') :
    IsPrefixMin f n' a := e ▸ h

/-- After all 4096 indices the running minimum is the minimum over the whole axis. -/
theorem IsPrefixMin.full {f : Fin 4096 → EReal} {a : EReal} (h : IsPrefixMin f 4096 a) :
    a = (Finset.univ : Finset (Fin 4096)).fold min wInf f :=
  eq_of_forall_le_iff fun c => by
    rw [h c, Finset.le_fold_min]
    exact ⟨fun ⟨hc, hall⟩ => ⟨hc, fun j _ => hall j j.isLt⟩, fun ⟨hc, hall⟩ => ⟨hc, fun j _ => hall j (Finset.mem_univ _)⟩⟩

/-! ## The loss -/

/-- The sum of the row minima, and of the column minima, over the four batches. -/
def rowTotal (x y : Pts) : EReal := ∑ b : Fin 4, ∑ i : Fin 4096, rowMin x y b i
def colTotal (x y : Pts) : EReal := ∑ b : Fin 4, ∑ j : Fin 4096, colMin x y b j

/-- A mean as both programs take it: the sum, started from the zero word, over the word of 16384. -/
def meanOf (s : EReal) : EReal := Ideal.div (wZero + s) wCount

/-- The loss from the two totals: the two means added, times the word of one, over the word of four. -/
def loss (first second : EReal) : EReal := Ideal.div (wOne * (meanOf first + meanOf second)) wFour

/-- The loss does not depend on which mean is added to which. -/
theorem loss_comm (a b : EReal) : loss a b = loss b a := by
  unfold loss
  rw [add_comm]

end Chamfer

end
-- ==== Proof.ChamferRef.lean ====
/-
  The reference program computes the specification.

  Read one operation at a time, the reference forms the clipped distance of every pair of points of a batch, takes
  the minimum of the distance array along the first cloud's axis and along the second cloud's axis (each a fold of
  `min` from the infinity word over that axis), sums each array of minima over everything, and ends with the loss
  of the two totals: the column total first, the row total second.
-/
import proofs.«175349_j14001593385464_1_alg».proof.Proof.Gen.ReferenceIdeal.Read
import proofs.«175349_j14001593385464_1_alg».proof.Proof.ChamferSpec
import Idealize.ShloMosaic.Lib.ValueIdx
import Idealize.ShloMosaic.PureOps.Ideal.Laws

noncomputable section

open scoped BigOperators

namespace Chamfer.Ref

open Cert.ReferenceIdeal Cert.ReferenceIdeal.Gen Cert.ReferenceIdeal.Read Idealize.ShloMosaic Idealize.ShloMosaic.ValueIdx Chamfer

variable (x y : (⟨S4x4096x128, .f32⟩ : BufTy).Contents (Elt Ideal))

/-! ## The indices the operations read, by coordinates -/

theorem idx_sq_x (b : Fin 4) (i j : Fin 4096) (k : Fin 128) :
    idx_main_v1 (idx_main_v5 (idx_main_v7 (ix3 b i j))) k = ix3 b i k :=
  funext fun a => by match a with | ⟨0, _⟩ => rfl | ⟨1, _⟩ => rfl | ⟨2, _⟩ => rfl
theorem idx_sq_y (b : Fin 4) (i j : Fin 4096) (k : Fin 128) :
    idx_main_v3 (idx_main_v6 (idx_main_v8 (ix3 b i j))) k = ix3 b j k :=
  funext fun a => by match a with | ⟨0, _⟩ => rfl | ⟨1, _⟩ => rfl | ⟨2, _⟩ => rfl
theorem idx_inner_x (b : Fin 4) (i j : Fin 4096) (k : Fin 128) : lidx_main_v4 (ix3 b i j) k = ix3 b i k :=
  funext fun a => by match a with | ⟨0, _⟩ => rfl | ⟨1, _⟩ => rfl | ⟨2, _⟩ => rfl
theorem idx_inner_y (b : Fin 4) (i j : Fin 4096) (k : Fin 128) : ridx_main_v4 (ix3 b i j) k = ix3 b j k :=
  funext fun a => by match a with | ⟨0, _⟩ => rfl | ⟨1, _⟩ => rfl | ⟨2, _⟩ => rfl

/-! ## The clipped distance array -/

/-- A sum started from the zero word is the sum. -/
theorem zero_word_add (s : EReal) : (FloatOps.ofBits (F := Ideal) .f32 0x00000000#32 : EReal) + s = s := by
  rw [show (FloatOps.ofBits (F := Ideal) .f32 0x00000000#32 : EReal) = 0 from Ideal.ofBits_zero_f32, zero_add]

/-- Entry (b, i, j) of the clipped array is the clipped distance of the two points. -/
theorem clip_apply (b : Fin 4) (i j : Fin 4096) : val_main_v13 (F := Ideal) x y (ix3 b i j) = clipDist x y b i j := by
  unfold clipDist sqNorm inner
  simp only [val_main_v13_apply, val_main_call0_v4_apply, val_main_call0_v3_apply, val_main_cst_3_apply,
    val_main_call0_v2_apply, val_main_call0_v1_apply, val_main_call0_v0_apply, val_main_cst_2_apply,
    val_main_v12_apply, val_main_v9_apply, val_main_v7_apply, val_main_v5_apply, val_main_v1_apply,
    val_main_v8_apply, val_main_v6_apply, val_main_v3_apply, val_main_v11_apply, val_main_v10_apply,
    val_main_cst_1_apply, val_main_v4_apply, val_main_v0_apply, val_main_v2_apply, val_main_cst_apply,
    val_main_cst_0_apply, idx_sq_x, idx_sq_y, idx_inner_x, idx_inner_y, zero_word_add]
  rfl

/-! ## The two arrays of minima -/

/-- Entry (b, i) of the minimum along the second cloud's axis is the row minimum. -/
theorem rows_apply (b : Fin 4) (i : Fin 4096) : val_main_v17 (F := Ideal) x y (ix2 b i) = rowMin x y b i := by
  have hR : S4x4096x4096.Reduces [2] S4x4096 := by decide
  unfold val_main_v17 rowMin
  rw [Host.reduce_eq_fold_single FloatOps.minimumf _ _ reducesTo_S4x4096x4096_S4x4096_d2 hR h_S_]
  have e : (val_main_v13 (F := Ideal) x y ∘ hR.lift (ix2 b i)) = fun j : Fin 4096 => clipDist x y b i j :=
    funext fun (j : Fin 4096) =>
      (congrArg (val_main_v13 (F := Ideal) x y) (show hR.lift (ix2 b i) j = ix3 b i j from funext fun a => Fin.ext (by
        match a with
        | ⟨0, _⟩ => rfl
        | ⟨1, _⟩ => rfl
        | ⟨2, _⟩ => rfl))).trans (clip_apply x y b i j)
  rw [e]
  rfl

/-- Entry (b, j) of the minimum along the first cloud's axis is the column minimum. -/
theorem cols_apply (b : Fin 4) (j : Fin 4096) : val_main_v14 (F := Ideal) x y (ix2 b j) = colMin x y b j := by
  have hR : S4x4096x4096.Reduces [1] S4x4096 := by decide
  unfold val_main_v14 colMin
  rw [Host.reduce_eq_fold_single FloatOps.minimumf _ _ reducesTo_S4x4096x4096_S4x4096_d1 hR h_S_]
  have e : (val_main_v13 (F := Ideal) x y ∘ hR.lift (ix2 b j)) = fun i : Fin 4096 => clipDist x y b i j :=
    funext fun (i : Fin 4096) =>
      (congrArg (val_main_v13 (F := Ideal) x y) (show hR.lift (ix2 b j) i = ix3 b i j from funext fun a => Fin.ext (by
        match a with
        | ⟨0, _⟩ => rfl
        | ⟨1, _⟩ => rfl
        | ⟨2, _⟩ => rfl))).trans (clip_apply x y b i j)
  rw [e]
  rfl

/-! ## The totals and the result -/

theorem rows_total (i : S_.Idx) : val_main_v18 (F := Ideal) x y i = wZero + rowTotal x y := by
  rw [val_main_v18_apply, sum_idx2]
  simp only [rows_apply]
  rfl

theorem cols_total (i : S_.Idx) : val_main_v15 (F := Ideal) x y i = wZero + colTotal x y := by
  rw [val_main_v15_apply, sum_idx2]
  simp only [cols_apply]
  rfl

/-- The reference's result is the loss of the column total and the row total, in that order. -/
theorem result_eq : val_main_v22 (F := Ideal) x y = fun _ => loss (colTotal x y) (rowTotal x y) := by
  funext i
  rw [val_main_v22_apply, val_main_v21_apply, val_main_v20_apply, val_main_v16_apply, val_main_v19_apply,
    rows_total, cols_total]
  rfl

end Chamfer.Ref

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibColumnForms.lean ====
/-
  Column vectors, and one-axis folds of a matrix, read at an entry over the extended reals.

  A vector of length a viewed as the column [a, 1]; that column spread along its unit axis to [a, b]; the sum of a
  matrix's row; and the minimum of a matrix's row, or of its column, folded from the accumulator's word. Each is
  stated at an entry named by its coordinates, so that a proof about one entry of a block rewrites by it.
-/
import Idealize.ShloMosaic.PureOps.Ideal.Laws
import Idealize.ShloMosaic.Lib.Pipeline.Value
import Idealize.ShloMosaic.Lib.ValueIdx

noncomputable section

open scoped BigOperators

namespace Idealize.ShloMosaic.ColumnForms

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread along its unit axis to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable {φ : FTy}

/-- The sum of row `p` of an `[a, b]` matrix, as the lane reduction computes it over the extended reals. -/
theorem rowSum_apply {a b : ℕ} (src : FVec Ideal (⟨2, ![a, b]⟩ : Shape) φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- The minimum of row `p` of an `[a, b]` matrix, folded from the accumulator's word. -/
theorem rowMinFold_apply {a b : ℕ} (src : FVec Ideal (⟨2, ![a, b]⟩ : Shape) φ) (acc : BitVec φ.bits)
    (h : (⟨2, ![a, b]⟩ : Shape).Reduces [1] ⟨1, ![a]⟩) (hφ : FKind.Formats φ) (hacc : acc = FKind.minimumf.neutral φ hφ) (p : Fin a) :
    multiReduction .minimumf [1] ⟨1, ![a]⟩ src acc h hφ hacc (ix1 p)
      = (Finset.univ : Finset (Fin b)).fold min (Ideal.ofBits φ acc) fun k => src (ix2 p k) := by
  rw [multiReduction_minimumf_eq_fold, h.fold_filter_drop_single]
  have e : (src ∘ h.lift (ix1 p)) = fun k : Fin b => src (ix2 p k) :=
    funext fun k => congrArg src (funext fun ax => Fin.ext (by
      match ax with
      | ⟨0, _⟩ => rfl
      | ⟨1, _⟩ => rfl))
  rw [e]
  rfl

/-- The minimum of column `q` of an `[a, b]` matrix, folded from the accumulator's word. -/
theorem colMinFold_apply {a b : ℕ} (src : FVec Ideal (⟨2, ![a, b]⟩ : Shape) φ) (acc : BitVec φ.bits)
    (h : (⟨2, ![a, b]⟩ : Shape).Reduces [0] ⟨1, ![b]⟩) (hφ : FKind.Formats φ) (hacc : acc = FKind.minimumf.neutral φ hφ) (q : Fin b) :
    multiReduction .minimumf [0] ⟨1, ![b]⟩ src acc h hφ hacc (ix1 q)
      = (Finset.univ : Finset (Fin a)).fold min (Ideal.ofBits φ acc) fun k => src (ix2 k q) := by
  rw [multiReduction_minimumf_eq_fold, h.fold_filter_drop_single]
  have e : (src ∘ h.lift (ix1 q)) = fun k : Fin a => src (ix2 k q) :=
    funext fun k => congrArg src (funext fun ax => Fin.ext (by
      match ax with
      | ⟨0, _⟩ => rfl
      | ⟨1, _⟩ => rfl))
  rw [e]
  rfl

/-! ## The same three at f32, with the accumulator's word written out

The zero word for a sum, the word of plus infinity for a minimum; the format's membership is its first alternative and
the accumulator's word is the operation's neutral word by computation. -/

/-- The sum of row `p` of an f32 `[a, b]` matrix accumulated from the zero word. -/
theorem rowSum_f32_apply {a b : ℕ} (src : FVec Ideal (⟨2, ![a, b]⟩ : Shape) .f32)
    (h : (⟨2, ![a, b]⟩ : Shape).Reduces [1] ⟨1, ![a]⟩) (p : Fin a) :
    multiReduction .add [1] ⟨1, ![a]⟩ src 0x00000000#32 h (.inl rfl) rfl (ix1 p) = ∑ k : Fin b, src (ix2 p k) :=
  rowSum_apply src _ h _ _ p

/-- The minimum of row `p` of an f32 `[a, b]` matrix folded from the word of plus infinity. -/
theorem rowMinFold_f32_apply {a b : ℕ} (src : FVec Ideal (⟨2, ![a, b]⟩ : Shape) .f32)
    (h : (⟨2, ![a, b]⟩ : Shape).Reduces [1] ⟨1, ![a]⟩) (p : Fin a) :
    multiReduction .minimumf [1] ⟨1, ![a]⟩ src 0x7F800000#32 h (.inl rfl) rfl (ix1 p)
      = (Finset.univ : Finset (Fin b)).fold min (Ideal.ofBits .f32 0x7F800000#32) fun k => src (ix2 p k) :=
  rowMinFold_apply src _ h _ _ p

/-- The minimum of column `q` of an f32 `[a, b]` matrix folded from the word of plus infinity. -/
theorem colMinFold_f32_apply {a b : ℕ} (src : FVec Ideal (⟨2, ![a, b]⟩ : Shape) .f32)
    (h : (⟨2, ![a, b]⟩ : Shape).Reduces [0] ⟨1, ![b]⟩) (q : Fin b) :
    multiReduction .minimumf [0] ⟨1, ![b]⟩ src 0x7F800000#32 h (.inl rfl) rfl (ix1 q)
      = (Finset.univ : Finset (Fin a)).fold min (Ideal.ofBits .f32 0x7F800000#32) fun k => src (ix2 k q) :=
  colMinFold_apply src _ h _ _ q

end Idealize.ShloMosaic.ColumnForms

end
-- ==== Proof.ChamferTile.lean ====
/-
  One tile of the clipped distance matrix, entry by entry.

  At a grid point the body holds all 4096 points of one batch of the first cloud and 512 points of the second. Its
  arithmetic forms, for every pair (p, q) of them, the clipped squared distance: the two squared norms are lane sums
  of squares, the inner product is a matrix product of the block with the transposed tile (the change of float format
  before it is the identity over the extended reals), and the column vector of norms and the row vector of norms are
  spread over the tile before they are added. From the tile it takes the minimum down each column (complete: every
  point of the first cloud is present) and the minimum along each row (partial: only this tile's 512 columns), the
  latter met with what the running minimum held before.
-/
import proofs.«175349_j14001593385464_1_alg».proof.Proof.Gen.KernelIdeal.Skeleton
import proofs.«175349_j14001593385464_1_alg».proof.Proof.ChamferSpec
import proofs.«175349_j14001593385464_1_alg».proof.Proof.LibMatmulAt
import proofs.«175349_j14001593385464_1_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Chamfer.Tile

open Cert.KernelIdeal Cert.KernelIdeal.Gen Idealize.ShloMosaic Idealize.ShloMosaic.ValueIdx
open Idealize.ShloMosaic.ColumnForms Chamfer

/-! ## Where the tile's matrix product reads its operands -/

theorem lhs_row (i : S4096x512.Idx) (q : dot_S4096x128_S128x512_S4096x512_1_0_0_1_n_n.contr.Idx) :
    (dot_S4096x128_S128x512_S4096x512_1_0_0_1_n_n.lhsIdx i q 0).val = (i 0).val := by
  unfold DotDims.lhsIdx
  rw [dif_neg (show ¬(0 : Fin S4096x128.rank) ∈ dot_S4096x128_S128x512_S4096x512_1_0_0_1_n_n.lhsBatch by decide),
    dif_pos (show (0 : Fin S4096x128.rank) ∈ dot_S4096x128_S128x512_S4096x512_1_0_0_1_n_n.lhsNonContracting by decide)]
  rfl
theorem lhs_k (i : S4096x512.Idx) (q : dot_S4096x128_S128x512_S4096x512_1_0_0_1_n_n.contr.Idx) :
    (dot_S4096x128_S128x512_S4096x512_1_0_0_1_n_n.lhsIdx i q 1).val = (q ⟨0, by decide⟩).val :=
  dot_S4096x128_S128x512_S4096x512_1_0_0_1_n_n.lhsIdx_val_of_single rfl i q
theorem rhs_k (i : S4096x512.Idx) (q : dot_S4096x128_S128x512_S4096x512_1_0_0_1_n_n.contr.Idx) :
    (dot_S4096x128_S128x512_S4096x512_1_0_0_1_n_n.rhsIdx i q 0).val = (q ⟨0, by decide⟩).val :=
  dot_S4096x128_S128x512_S4096x512_1_0_0_1_n_n.rhsIdx_val_of_single rfl i q
theorem rhs_col (i : S4096x512.Idx) (q : dot_S4096x128_S128x512_S4096x512_1_0_0_1_n_n.contr.Idx) :
    (dot_S4096x128_S128x512_S4096x512_1_0_0_1_n_n.rhsIdx i q 1).val = (i 1).val := by
  unfold DotDims.rhsIdx
  rw [dif_neg (show ¬(1 : Fin S128x512.rank) ∈ dot_S4096x128_S128x512_S4096x512_1_0_0_1_n_n.rhsBatch by decide),
    dif_pos (show (1 : Fin S128x512.rank) ∈ dot_S4096x128_S128x512_S4096x512_1_0_0_1_n_n.rhsNonContracting by decide)]
  rfl

/-- Entry (p, q) of the block times the transposed tile, into zero: the sum over the 128 coordinates. -/
theorem product_apply (l : FVec Ideal S4096x128 .bf16) (r : FVec Ideal S128x512 .bf16) (p : Fin 4096) (q : Fin 512) :
    matmul dot_S4096x128_S128x512_S4096x512_1_0_0_1_n_n none l r (constant S4096x512 .f32 0x00000000#32) (ix2 p q)
      = ∑ k : Fin 128, l (ix2 p k) * r (ix2 k q) :=
  MatmulAt.matmul_zero_at dot_S4096x128_S128x512_S4096x512_1_0_0_1_n_n rfl rfl lhs_row lhs_k rhs_k rhs_col none l r p q

/-- The transposed tile at (k, q) is the tile at (q, k). -/
theorem tileT_apply (v : FVec Ideal S512x128 .bf16) (k : Fin 128) (q : Fin 512) :
    transpose S128x512 [1, 0] v transposes_S512x128_p1_0_S128x512 (ix2 k q) = v (ix2 q k) :=
  transpose_ix2_apply v _ k q

/-! ## The tile -/

section
variable (xb : Vec Ideal S1x4096x128 .f32) (yt : Vec Ideal S1x512x128 .f32)

/-- The body's matrix product at (p, q): the inner product of point `p` of the block with point `q` of the tile (the
    change of format is the identity, the transposed tile read back at (q, k), the leading unit axes dropped). -/
theorem inner_apply (p : Fin 4096) (q : Fin 512) :
    matmul (F := Ideal) dot_S4096x128_S128x512_S4096x512_1_0_0_1_n_n none
        (truncf .bf16 (shapeCast S4096x128 xb shapeCasts_S1x4096x128_S4096x128) bitsLt_bf16_f32)
        (transpose S128x512 [1, 0] (truncf .bf16 (shapeCast S512x128 yt shapeCasts_S1x512x128_S512x128) bitsLt_bf16_f32)
          transposes_S512x128_p1_0_S128x512)
        (constant S4096x512 .f32 0x00000000#32) (ix2 p q)
      = ∑ d : Fin 128, xb (ix3 0 p d) * yt (ix3 0 q d) := by
  rw [product_apply]
  refine Finset.sum_congr rfl fun k _ => ?_
  rw [tileT_apply]
  simp only [truncf_apply, shapeCast_1ab_ab_apply]

/-- The clipped squared distance between point `p` of the resident block and point `q` of the streamed tile. -/
def tileDist (p : Fin 4096) (q : Fin 512) : EReal :=
  min wHundred (max wZero (((∑ d : Fin 128, xb (ix3 0 p d) * xb (ix3 0 p d)) + ∑ d : Fin 128, yt (ix3 0 q d) * yt (ix3 0 q d))
    - wTwo * ∑ d : Fin 128, xb (ix3 0 p d) * yt (ix3 0 q d)))

/-- The body's clipped tile at (p, q) is that distance. -/
theorem pay2_apply (p : Fin 4096) (q : Fin 512) : k0_pay2 (F := Ideal) xb yt (ix2 p q) = tileDist xb yt p q := by
  unfold k0_pay2 tileDist
  simp only [minimumf_apply, maximumf_apply, subf_apply, addf_apply, mulf_apply, broadcast_apply]
  rw [broadcastTo_a1_ab_apply, broadcastTo_1b_ab_apply, shapeCast_a_a1_apply, transpose_ix2_apply, shapeCast_a_a1_apply,
    rowSum_f32_apply, rowSum_f32_apply, inner_apply]
  simp only [mulf_apply, shapeCast_1ab_ab_apply]
  rfl

/-- The body's column minimum at column `q`: the least of the tile's column, below the infinity word. -/
theorem pay3_apply (q : Fin 512) :
    k0_pay3 (F := Ideal) xb yt (ix2 (0 : Fin 1) q) = (Finset.univ : Finset (Fin 4096)).fold min wInf fun p => tileDist xb yt p q := by
  unfold k0_pay3
  rw [shapeCast_a_1a_apply, colMinFold_f32_apply]
  simp only [pay2_apply]

/-- The body's new running row minimum at row `p`: what it held, met with the least of the tile's row. -/
theorem pay5_apply (acc : Vec Ideal S1x4096x1 .f32) (p : Fin 4096) :
    k0_pay5 (F := Ideal) xb yt acc (ix3 (0 : Fin 1) p (0 : Fin 1))
      = min (acc (ix3 (0 : Fin 1) p (0 : Fin 1))) ((Finset.univ : Finset (Fin 512)).fold min wInf fun q => tileDist xb yt p q) := by
  unfold k0_pay5
  simp only [minimumf_apply]
  rw [shapeCast_self, shapeCast_ab_1ab_apply, shapeCast_a_a1_apply, rowMinFold_f32_apply]
  simp only [pay2_apply]

end

/-- The column minima are stored as a [1, 1, 512] block: entry (0, 0, q) is entry (0, q). -/
theorem pay1_apply (v : FVec Ideal S1x512 .f32) (q : Fin 512) :
    k0_pay1 (F := Ideal) v (ix3 (0 : Fin 1) (0 : Fin 1) q) = v (ix2 (0 : Fin 1) q) := by
  unfold k0_pay1
  exact shapeCast_ab_1ab_apply v _ 0 0 q

/-- The reset block holds the infinity word everywhere. -/
theorem pay4_apply (i : S1x4096x1.Idx) : k0_pay4 (F := Ideal) i = wInf := rfl

end Chamfer.Tile

end
-- ==== Proof.ChamferCases.lean ====
/-
  What one run of the body leaves in its two output blocks.

  The body's stores are found by running it; read back, they are the body's own arithmetic of what it loaded. At the
  first tile of a batch the running-minimum block is first filled with the infinity word and then replaced by that
  word met with the tile's row minima; at a later tile it is replaced by what it held met with the tile's row minima.
  The column-minimum block is written once, with the tile's column minima, in either case.
-/
import proofs.«175349_j14001593385464_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Chamfer.Cases

open Cert.KernelIdeal Cert.KernelIdeal.Gen

variable {F : FTy → Type} [FloatOps F]

theorem hz3 : (![0, 0, 0] : Fin 3 → Nat) = fun _ => 0 := funext fun a => by fin_cases a <;> rfl

/-- A later tile: the running minimum becomes what it held met with this tile's row minima. -/
theorem later_rows (c : Dev nD) (i : grid0.Coords) (a2 : Memref sig .tc .vmem S1x4096x128 .f32) (h2 : a2.IsWhole)
    (a3 : Memref sig .tc .vmem S1x512x128 .f32) (h3 : a3.IsWhole) (a4 : Memref sig .tc .vmem S1x4096x1 .f32) (h4 : a4.IsWhole)
    (a5 : Memref sig .tc .vmem S1x1x512 .f32) (h5 : a5.IsWhole) (hc : ¬cond0_0 i)
    (x0 : Vec F S1x4096x128 .f32) (x1 : Vec F S1x512x128 .f32) (xo2 : Vec F S1x4096x1 .f32) :
    out0_B_2 c i a2 h2 a3 h3 a4 h4 a5 h5 hc x0 x1 xo2 = k0_pay5 x0 x1 xo2 := by
  unfold out0_B_2
  rw [View.read_writes_eq_canon _ _ _ (cover0_B_2 c i a2 h2 a3 h3 a4 h4 a5 h5 hc x0 x1 xo2)]
  unfold kernelRun0_B
  dsimp only
  sl_unfold_words
  rw [View.canon_unit_zero hz3]
  simp only [View.readAt_eq_ld, h2.read_unread, h3.read_unread, h4.read_unread, View.ld_unit_zero (S := S1x4096x128) hz3,
    View.ld_unit_zero (S := S1x512x128) hz3, View.ld_unit_zero (S := S1x4096x1) hz3]

/-- A later tile: the column block holds this tile's column minima. -/
theorem later_cols (c : Dev nD) (i : grid0.Coords) (a2 : Memref sig .tc .vmem S1x4096x128 .f32) (h2 : a2.IsWhole)
    (a3 : Memref sig .tc .vmem S1x512x128 .f32) (h3 : a3.IsWhole) (a4 : Memref sig .tc .vmem S1x4096x1 .f32) (h4 : a4.IsWhole)
    (a5 : Memref sig .tc .vmem S1x1x512 .f32) (h5 : a5.IsWhole) (hc : ¬cond0_0 i)
    (x0 : Vec F S1x4096x128 .f32) (x1 : Vec F S1x512x128 .f32) (xo2 : Vec F S1x4096x1 .f32) :
    out0_B_3 c i a2 h2 a3 h3 a4 h4 a5 h5 hc x0 x1 xo2 = k0_pay1 (k0_pay3 x0 x1) := by
  unfold out0_B_3
  rw [View.read_writes_eq_canon _ _ _ (cover0_B_3 c i a2 h2 a3 h3 a4 h4 a5 h5 hc x0 x1 xo2)]
  unfold kernelRun0_B
  dsimp only
  sl_unfold_words
  rw [View.canon_unit_zero hz3]
  simp only [View.readAt_eq_ld, h2.read_unread, h3.read_unread, h4.read_unread, View.ld_unit_zero (S := S1x4096x128) hz3,
    View.ld_unit_zero (S := S1x512x128) hz3, View.ld_unit_zero (S := S1x4096x1) hz3]

/-- The first tile of a batch: the running minimum becomes the infinity word met with this tile's row minima. -/
theorem first_rows (c : Dev nD) (i : grid0.Coords) (a2 : Memref sig .tc .vmem S1x4096x128 .f32) (h2 : a2.IsWhole)
    (a3 : Memref sig .tc .vmem S1x512x128 .f32) (h3 : a3.IsWhole) (a4 : Memref sig .tc .vmem S1x4096x1 .f32) (h4 : a4.IsWhole)
    (a5 : Memref sig .tc .vmem S1x1x512 .f32) (h5 : a5.IsWhole) (hc : cond0_0 i)
    (x0 : Vec F S1x4096x128 .f32) (x1 : Vec F S1x512x128 .f32) :
    out0_A_2 c i a2 h2 a3 h3 a4 h4 a5 h5 hc x0 x1 = k0_pay5 x0 x1 (k0_pay4 (F := F)) := by
  unfold out0_A_2
  rw [View.read_writes_eq_canon _ _ _ (cover0_A_2 c i a2 h2 a3 h3 a4 h4 a5 h5 hc x0 x1)]
  unfold kernelRun0_A
  dsimp only
  sl_unfold_words
  rw [View.canon_cons_unit_zero (S := S1x4096x1) hz3, View.readCov_unit_zero (S := S1x4096x1) _ hz3]
  simp only [View.readAt_eq_ld, h2.read_unread, h3.read_unread, View.ld_unit_zero (S := S1x4096x128) hz3,
    View.ld_unit_zero (S := S1x512x128) hz3, View.ld_unit_zero (S := S1x4096x1) hz3]

/-- The first tile of a batch: the column block holds this tile's column minima. -/
theorem first_cols (c : Dev nD) (i : grid0.Coords) (a2 : Memref sig .tc .vmem S1x4096x128 .f32) (h2 : a2.IsWhole)
    (a3 : Memref sig .tc .vmem S1x512x128 .f32) (h3 : a3.IsWhole) (a4 : Memref sig .tc .vmem S1x4096x1 .f32) (h4 : a4.IsWhole)
    (a5 : Memref sig .tc .vmem S1x1x512 .f32) (h5 : a5.IsWhole) (hc : cond0_0 i)
    (x0 : Vec F S1x4096x128 .f32) (x1 : Vec F S1x512x128 .f32) :
    out0_A_3 c i a2 h2 a3 h3 a4 h4 a5 h5 hc x0 x1 = k0_pay1 (k0_pay3 x0 x1) := by
  unfold out0_A_3
  rw [View.read_writes_eq_canon _ _ _ (cover0_A_3 c i a2 h2 a3 h3 a4 h4 a5 h5 hc x0 x1)]
  unfold kernelRun0_A
  dsimp only
  sl_unfold_words
  rw [View.canon_unit_zero hz3]
  simp only [View.readAt_eq_ld, h2.read_unread, h3.read_unread, View.ld_unit_zero (S := S1x4096x128) hz3,
    View.ld_unit_zero (S := S1x512x128) hz3]

end Chamfer.Cases

end
-- ==== Proof.LibSumIdx3.lean ====
/-
  A sum over a rank-3 index set as the triple sum over its coordinates.
-/
import Idealize.ShloMosaic.Lib.ValueIdx

noncomputable section

open scoped BigOperators

namespace Idealize.ShloMosaic.SumIdx3

open Idealize.ShloMosaic Idealize.ShloMosaic.ValueIdx

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Idealize.ShloMosaic.SumIdx3

end
-- ==== Proof.ChamferTail.lean ====
/-
  The host lines after the region: from the two arrays of minima to the loss.

  Each array is summed over everything from the zero word and divided by the word of 16384; the two means are added,
  multiplied by the word of one and divided by the word of four. Over the extended reals the sum of a [4, 4096, 1]
  array, or of a [4, 1, 4096] array, is the double sum over its two proper coordinates.
-/
import proofs.«175349_j14001593385464_1_alg».proof.Proof.Gen.KernelIdeal
import proofs.«175349_j14001593385464_1_alg».proof.Proof.ChamferSpec
import proofs.«175349_j14001593385464_1_alg».proof.Proof.LibSumIdx3
import Idealize.ShloMosaic.Lib.ValueIdx
import Idealize.ShloMosaic.PureOps.Ideal.Laws

noncomputable section

open scoped BigOperators

namespace Chamfer.Tail

open Cert.KernelIdeal Cert.KernelIdeal.Gen Idealize.ShloMosaic Idealize.ShloMosaic.ValueIdx Idealize.ShloMosaic.SumIdx3 Chamfer

/-- The host lines after the region, as one function of the array of row minima and the array of column minima. -/
def tail {F : FTy → Type} [FloatOps F] (R : FVec F S4x4096x1 .f32) (C : FVec F S4x1x4096 .f32) : FVec F S_ .f32 :=
  Host.divf
    (mulf (constant S_ .f32 0x3F800000#32)
      (addf
        (Host.divf (Host.reduceAdd R (constant S_ .f32 0x00000000#32) reducesTo_S4x4096x1_S_d0_1_2 h_S_) (constant S_ .f32 0x46800000#32))
        (Host.divf (Host.reduceAdd C (constant S_ .f32 0x00000000#32) reducesTo_S4x1x4096_S_d0_1_2 h_S_) (constant S_ .f32 0x46800000#32))))
    (constant S_ .f32 0x40800000#32)

/-- Over the extended reals the tail is the loss of the two double sums. -/
theorem tail_apply (R : FVec Ideal S4x4096x1 .f32) (C : FVec Ideal S4x1x4096 .f32) (i : S_.Idx) :
    tail (F := Ideal) R C i
      = loss (∑ b : Fin 4, ∑ p : Fin 4096, R (ix3 b p (0 : Fin 1))) (∑ b : Fin 4, ∑ j : Fin 4096, C (ix3 b (0 : Fin 1) j)) := by
  have hR : Host.reduceAdd (F := Ideal) R (constant S_ .f32 0x00000000#32) reducesTo_S4x4096x1_S_d0_1_2 h_S_ i
      = wZero + ∑ b : Fin 4, ∑ p : Fin 4096, R (ix3 b p (0 : Fin 1)) := by
    simp only [Host.reduceAdd, Ideal.hostReduceAdd_def]
    rw [Ideal.hostReduceAdd_total reducesTo_S4x4096x1_S_d0_1_2 (fun b => b.elim0) R _ i, sum_idx3]
    simp only [Fin.sum_univ_one]
    rfl
  have hC : Host.reduceAdd (F := Ideal) C (constant S_ .f32 0x00000000#32) reducesTo_S4x1x4096_S_d0_1_2 h_S_ i
      = wZero + ∑ b : Fin 4, ∑ j : Fin 4096, C (ix3 b (0 : Fin 1) j) := by
    simp only [Host.reduceAdd, Ideal.hostReduceAdd_def]
    rw [Ideal.hostReduceAdd_total reducesTo_S4x1x4096_S_d0_1_2 (fun b => b.elim0) C _ i, sum_idx3]
    simp only [Fin.sum_univ_one]
    rfl
  unfold tail loss meanOf
  show Ideal.div (wOne * (Ideal.div (Host.reduceAdd (F := Ideal) R (constant S_ .f32 0x00000000#32) reducesTo_S4x4096x1_S_d0_1_2 h_S_ i) wCount
      + Ideal.div (Host.reduceAdd (F := Ideal) C (constant S_ .f32 0x00000000#32) reducesTo_S4x1x4096_S_d0_1_2 h_S_ i) wCount)) wFour = _
  rw [hR, hC]

end Chamfer.Tail

end
-- ==== Proof.ChamferRun.lean ====
/-
  The kernel's run, read as values.

  The grid has 32 points: batch b = t / 8 (outer axis), tile jt = t % 8 of the second cloud (inner axis). At point t
  the body holds all 4096 points of batch b of the first cloud and points 512 jt .. 512 jt + 511 of the second. The
  column-minimum block it writes is complete and is written back at every point, into columns 512 jt .. of row b.
  The row-minimum block stays in place over the eight tiles of a batch; after tile jt it holds, for every point of
  the first cloud, the minimum over the first 512 (jt + 1) points of the second (by induction over the points, the
  first tile of a batch starting again from the infinity word), and it is written back after the eighth tile, when
  that is the minimum over all 4096. The two result arrays are therefore the row minima and the column minima of
  the specification, and the host lines after the region turn them into the loss.
-/
import proofs.«175349_j14001593385464_1_alg».proof.Proof.Gen.KernelIdeal.Frame
import proofs.«175349_j14001593385464_1_alg».proof.Proof.ChamferSpec
import proofs.«175349_j14001593385464_1_alg».proof.Proof.ChamferTile
import proofs.«175349_j14001593385464_1_alg».proof.Proof.ChamferCases
import proofs.«175349_j14001593385464_1_alg».proof.Proof.ChamferTail
import Idealize.ShloMosaic.Lib.Pipeline.Value
import Idealize.ShloMosaic.Lib.StableHlo.Run
import Idealize.ShloMosaic.Lib.ValueIdx

set_option maxRecDepth 16384

noncomputable section

open scoped BigOperators

open Idealize.ShloMosaic Idealize.ShloMosaic.TcCoe Idealize.SL.Sem
open Idealize.ShloMosaic.Pipeline (Dat)

namespace Chamfer.Kernel

open Cert.KernelIdeal Cert.KernelIdeal.Gen Idealize.ShloMosaic.ValueIdx Chamfer Chamfer.Tile Chamfer.Cases Chamfer.Tail

variable (m : (ℓ : Loc nD τ sig) → Buf (Elt Ideal) ℓ) (ρ : Dev nD → PrngReg)

/-! ## Names of literal type for the arrays and the blocks -/

/-- The two clouds as the region finds them. -/
abbrev cloudX (c : Dev nD) : Pts := V m c main_arg0
abbrev cloudY (c : Dev nD) : Pts := V m c main_arg1
/-- The resident block of the first cloud and the streamed tile of the second, at point `t`. -/
abbrev xblk (c : Dev nD) (t : Fin cfg0.N) : Vec Ideal S1x4096x128 .f32 := iblk m c 0 t
abbrev yblk (c : Dev nD) (t : Fin cfg0.N) : Vec Ideal S1x512x128 .f32 := iblk m c 1 t

/-- The batch of point `t`, and the array column of column `q` of its tile. -/
def batchOf (t : Fin cfg0.N) : Fin 4 := ⟨t.val / 8, by have := lt_of_lt_of_eq t.isLt (show cfg0.N = 32 from N_0); omega⟩
def colOf (t : Fin cfg0.N) (q : Fin 512) : Fin 4096 := ⟨512 * (t.val % 8) + q.val, by have := q.isLt; omega⟩

/-- The four index maps over the grid, decided: batch on the first axis everywhere; the tile number on the second
    cloud's point axis and on the column array's last axis. -/
theorem grid_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0
    ∧ win0_3.index t (0 : Fin 3) = t.val / 8 ∧ win0_3.index t (1 : Fin 3) = 0 ∧ win0_3.index t (2 : Fin 3) = t.val % 8 :=
  (by decide +kernel : ∀ t : Fin grid0.N, _)

/-! ## The blocks are the clouds' rows -/

theorem xblk_apply (c : Dev nD) (t : Fin cfg0.N) (p : Fin 4096) (d : Fin 128) :
    xblk m c t (ix3 (0 : Fin 1) p d) = cloudX m c (ix3 (batchOf t) p d) := by
  obtain ⟨e0, e1, e2, -⟩ := grid_facts t
  show iblk m c 0 t (ix3 (0 : Fin 1) p d) = _
  unfold iblk
  rw [View.read_apply]
  show V m c main_arg0 _ = V m c main_arg0 _
  congr 1
  funext a
  apply Fin.ext
  match a with
  | ⟨0, _⟩ => show win0_0.index t (0 : Fin 3) * 1 + 1 * (0 : Fin 1).val = t.val / 8; rw [e0]; simp
  | ⟨1, _⟩ => show win0_0.index t (1 : Fin 3) * 4096 + 1 * p.val = p.val; rw [e1]; omega
  | ⟨2, _⟩ => show win0_0.index t (2 : Fin 3) * 128 + 1 * d.val = d.val; rw [e2]; omega

theorem yblk_apply (c : Dev nD) (t : Fin cfg0.N) (q : Fin 512) (d : Fin 128) :
    yblk m c t (ix3 (0 : Fin 1) q d) = cloudY m c (ix3 (batchOf t) (colOf t q) d) := by
  obtain ⟨-, -, -, e0, e1, e2, -⟩ := grid_facts t
  show iblk m c 1 t (ix3 (0 : Fin 1) q d) = _
  unfold iblk
  rw [View.read_apply]
  show V m c main_arg1 _ = V m c main_arg1 _
  congr 1
  funext a
  apply Fin.ext
  match a with
  | ⟨0, _⟩ => show win0_1.index t (0 : Fin 3) * 1 + 1 * (0 : Fin 1).val = t.val / 8; rw [e0]; simp
  | ⟨1, _⟩ => show win0_1.index t (1 : Fin 3) * 512 + 1 * q.val = 512 * (t.val % 8) + q.val; rw [e1]; omega
  | ⟨2, _⟩ => show win0_1.index t (2 : Fin 3) * 128 + 1 * d.val = d.val; rw [e2]; omega

/-- So the tile's clipped distance is the clouds' clipped distance at the tile's place. -/
theorem tile_eq (c : Dev nD) (t : Fin cfg0.N) (p : Fin 4096) (q : Fin 512) :
    tileDist (xblk m c t) (yblk m c t) p q = clipDist (cloudX m c) (cloudY m c) (batchOf t) p (colOf t q) := by
  unfold tileDist clipDist sqNorm inner
  simp only [xblk_apply, yblk_apply]

/-! ## What the two output blocks hold after each point -/

theorem rows_first (c : Dev nD) (t : Fin cfg0.N) (h0 : t.val % 8 = 0) (p : Fin 4096) :
    (outsAt0 m c t.val t.isLt).1 (ix3 (0 : Fin 1) p (0 : Fin 1))
      = min wInf ((Finset.univ : Finset (Fin 512)).fold min wInf fun q => tileDist (xblk m c t) (yblk m c t) p q) := by
  rw [outsAt0_A m c t h0]
  dsimp only
  refine (congrFun (first_rows (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t))
    (ix3 (0 : Fin 1) p (0 : Fin 1))).trans ?_
  exact pay5_apply (xblk m c t) (yblk m c t) (k0_pay4 (F := Ideal)) p

theorem rows_later (c : Dev nD) (t : Fin cfg0.N) (h0 : ¬t.val % 8 = 0) (p : Fin 4096) :
    (outsAt0 m c t.val t.isLt).1 (ix3 (0 : Fin 1) p (0 : Fin 1))
      = min ((outsAt0 m c (t.val - 1) (Nat.lt_of_le_of_lt (Nat.sub_le _ _) t.isLt)).1 (ix3 (0 : Fin 1) p (0 : Fin 1)))
          ((Finset.univ : Finset (Fin 512)).fold min wInf fun q => tileDist (xblk m c t) (yblk m c t) p q) := by
  rw [outsAt0_B m c t h0]
  dsimp only
  refine (congrFun (later_rows (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
    (outsAt0 m c (t.val - 1) (Nat.lt_of_le_of_lt (Nat.sub_le _ _) t.isLt)).1) (ix3 (0 : Fin 1) p (0 : Fin 1))).trans ?_
  exact pay5_apply (xblk m c t) (yblk m c t) (outsAt0 m c (t.val - 1) (Nat.lt_of_le_of_lt (Nat.sub_le _ _) t.isLt)).1 p

theorem cols_at (c : Dev nD) (t : Fin cfg0.N) (q : Fin 512) :
    (outsAt0 m c t.val t.isLt).2 (ix3 (0 : Fin 1) (0 : Fin 1) q)
      = (Finset.univ : Finset (Fin 4096)).fold min wInf fun p => tileDist (xblk m c t) (yblk m c t) p q := by
  by_cases h0 : t.val % 8 = 0
  · rw [outsAt0_A m c t h0]
    dsimp only
    refine (congrFun (first_cols (F := Ideal) c (grid0.coords t) (ms0_0 t) (hs0_0 t) (ms0_1 t) (hs0_1 t) (ms0_2 t) (hs0_2 t) (ms0_3 t) (hs0_3 t) ((hcond0_0 t).mpr h0) (iblk m c 0 t) (iblk m c 1 t))
      (ix3 (0 : Fin 1) (0 : Fin 1) q)).trans ?_
    exact (pay1_apply (k0_pay3 (F := Ideal) (xblk m c t) (yblk m c t)) q).trans (pay3_apply (xblk m c t) (yblk m c t) q)
  · rw [outsAt0_B m c t h0]
    dsimp only
    refine (congrFun (later_cols (F := Ideal) c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t)
      (outsAt0 m c (t.val - 1) (Nat.lt_of_le_of_lt (Nat.sub_le _ _) t.isLt)).1) (ix3 (0 : Fin 1) (0 : Fin 1) q)).trans ?_
    exact (pay1_apply (k0_pay3 (F := Ideal) (xblk m c t) (yblk m c t)) q).trans (pay3_apply (xblk m c t) (yblk m c t) q)

/-- THE RUNNING MINIMUM. After point `n` the row block holds, for every point `p` of the first cloud, the minimum of
    the clipped distances to the first 512 (n % 8 + 1) points of the second cloud — by induction on the point. -/
theorem rows_inv (c : Dev nD) : ∀ (n : ℕ) (h : n < cfg0.N) (p : Fin 4096),
    IsPrefixMin (fun j => clipDist (cloudX m c) (cloudY m c) (batchOf ⟨n, h⟩) p j) (512 * (n % 8 + 1))
      ((outsAt0 m c n h).1 (ix3 (0 : Fin 1) p (0 : Fin 1)))
  | 0, h, p => by
    refine IsPrefixMin.of_eq (rows_first m c ⟨0, h⟩ rfl p) ?_
    exact (IsPrefixMin.zero _).step (by norm_num) _ (fun q => tile_eq m c ⟨0, h⟩ p q)
  | n + 1, h, p => by
    have hN : n + 1 < 32 := lt_of_lt_of_eq h (show cfg0.N = 32 from N_0)
    by_cases h0 : (n + 1) % 8 = 0
    · refine IsPrefixMin.of_eq (rows_first m c ⟨n + 1, h⟩ h0 p) ?_
      have hz : IsPrefixMin (fun j => clipDist (cloudX m c) (cloudY m c) (batchOf ⟨n + 1, h⟩) p j) (512 * ((n + 1) % 8)) wInf :=
        (IsPrefixMin.zero _).len_eq (by omega)
      exact (hz.step (by omega) _ (fun q => tile_eq m c ⟨n + 1, h⟩ p q)).len_eq (by omega)
    · refine IsPrefixMin.of_eq (rows_later m c ⟨n + 1, h⟩ h0 p) ?_
      have ih := rows_inv c n (Nat.lt_of_succ_lt h) p
      have hb : batchOf ⟨n, Nat.lt_of_succ_lt h⟩ = batchOf ⟨n + 1, h⟩ := Fin.ext (by show n / 8 = (n + 1) / 8; omega)
      rw [hb] at ih
      exact ((ih.len_eq (by omega : 512 * (n % 8 + 1) = 512 * ((n + 1) % 8))).step (by omega) _
        (fun q => tile_eq m c ⟨n + 1, h⟩ p q)).len_eq (by omega)

/-- After the eighth tile of a batch the row block holds the row minima. -/
theorem rows_done (c : Dev nD) (t : Fin cfg0.N) (h7 : t.val % 8 = 7) (p : Fin 4096) :
    (outsAt0 m c t.val t.isLt).1 (ix3 (0 : Fin 1) p (0 : Fin 1)) = rowMin (cloudX m c) (cloudY m c) (batchOf t) p :=
  ((rows_inv m c t.val t.isLt p).len_eq (by omega)).full

/-- At every point the column block holds the column minima of its 512 columns. -/
theorem cols_done (c : Dev nD) (t : Fin cfg0.N) (q : Fin 512) :
    (outsAt0 m c t.val t.isLt).2 (ix3 (0 : Fin 1) (0 : Fin 1) q) = colMin (cloudX m c) (cloudY m c) (batchOf t) (colOf t q) := by
  rw [cols_at]
  unfold colMin
  simp only [tile_eq]

/-! ## The two result arrays -/

/-- The array of row minima and the array of column minima. -/
abbrev rowArr (c : Dev nD) : Buf (Elt Ideal) ((c : Thread nD τ).loc main_v0_0) :=
  fun k => rowMin (cloudX m c) (cloudY m c) (k 0) (k 1)
abbrev colArr (c : Dev nD) : Buf (Elt Ideal) ((c : Thread nD τ).loc main_v0_1) :=
  fun k => colMin (cloudX m c) (cloudY m c) (k 0) (k 2)

/-- What a write-back of the row block writes is that block of the array of row minima. -/
theorem flushed_rows (c : Dev nD) (t : Fin cfg0.N) (hf : (cfg0.win 2).flush t = true) :
    (dats m 0 c).flushed 2 t = ((cfg0.win 2).blk t).view.read (Elt Ideal) (rowArr m c) := by
  have h7 : t.val % 8 = 7 := (flush0_2 t).mp hf
  obtain ⟨-, -, -, -, -, -, e0, e1, e2, -⟩ := grid_facts t
  show (cfg0.win 2).cut (grid0.coords t) ((dats m 0 c).after 2 t) = _
  rw [after0_2]
  funext y
  have hy0 : (y 0).val < 1 := (y 0).isLt
  have hy2 : (y 2).val < 1 := (y 2).isLt
  have ey : (y : S1x4096x1.Idx) = ix3 (0 : Fin 1) (y 1) (0 : Fin 1) := funext fun a => Fin.ext (by
    match a with
    | ⟨0, _⟩ => show (y 0).val = 0; omega
    | ⟨1, _⟩ => rfl
    | ⟨2, _⟩ => show (y 2).val = 0; omega)
  refine (congrArg (outsAt0 m c t.val t.isLt).1 ey).trans ((rows_done m c t h7 (y 1)).trans ?_)
  have a0 : batchOf t = (((cfg0.win 2).blk t).view.emb y) 0 :=
    Fin.ext (by show t.val / 8 = win0_2.index t (0 : Fin 3) * 1 + 1 * (y 0).val; omega)
  have a1 : (y 1 : Fin 4096) = (((cfg0.win 2).blk t).view.emb y) 1 :=
    Fin.ext (by show (y 1).val = win0_2.index t (1 : Fin 3) * 4096 + 1 * (y 1).val; omega)
  show rowMin (cloudX m c) (cloudY m c) (batchOf t) (y 1)
    = rowMin (cloudX m c) (cloudY m c) ((((cfg0.win 2).blk t).view.emb y) 0) ((((cfg0.win 2).blk t).view.emb y) 1)
  rw [← a0, ← a1]

/-- What a write-back of the column block writes is that block of the array of column minima. -/
theorem flushed_cols (c : Dev nD) (t : Fin cfg0.N) (hf : (cfg0.win 3).flush t = true) :
    (dats m 0 c).flushed 3 t = ((cfg0.win 3).blk t).view.read (Elt Ideal) (colArr m c) := by
  obtain ⟨-, -, -, -, -, -, -, -, -, e0, e1, e2⟩ := grid_facts t
  show (cfg0.win 3).cut (grid0.coords t) ((dats m 0 c).after 3 t) = _
  rw [after0_3]
  funext y
  have hy0 : (y 0).val < 1 := (y 0).isLt
  have hy1 : (y 1).val < 1 := (y 1).isLt
  have hy2 : (y 2).val < 512 := (y 2).isLt
  have ey : (y : S1x1x512.Idx) = ix3 (0 : Fin 1) (0 : Fin 1) (y 2) := funext fun a => Fin.ext (by
    match a with
    | ⟨0, _⟩ => show (y 0).val = 0; omega
    | ⟨1, _⟩ => show (y 1).val = 0; omega
    | ⟨2, _⟩ => rfl)
  refine (congrArg (outsAt0 m c t.val t.isLt).2 ey).trans ((cols_done m c t (y 2)).trans ?_)
  have a0 : batchOf t = (((cfg0.win 3).blk t).view.emb y) 0 :=
    Fin.ext (by show t.val / 8 = win0_3.index t (0 : Fin 3) * 1 + 1 * (y 0).val; omega)
  have a2 : colOf t (y 2) = (((cfg0.win 3).blk t).view.emb y) 2 :=
    Fin.ext (by show 512 * (t.val % 8) + (y 2).val = win0_3.index t (2 : Fin 3) * 512 + 1 * (y 2).val; omega)
  show colMin (cloudX m c) (cloudY m c) (batchOf t) (colOf t (y 2))
    = colMin (cloudX m c) (cloudY m c) ((((cfg0.win 3).blk t).view.emb y) 0) ((((cfg0.win 3).blk t).view.emb y) 2)
  rw [← a0, ← a2]

/-- Every entry of the row array is written back by the last point of its batch. -/
theorem final_rows (c : Dev nD) : (dats m 0 c).arrAt 2 cfg0.N = rowArr m c :=
  (dats m 0 c).arrAt_eq_of_cover 2 (rowArr m c) (flushed_rows m c) fun i => by
    have hi0 : (i 0).val < 4 := (i 0).isLt
    have hi1 : (i 1).val < 4096 := (i 1).isLt
    have hi2 : (i 2).val < 1 := (i 2).isLt
    have hlt : 8 * (i 0).val + 7 < cfg0.N := by rw [show cfg0.N = 32 from N_0]; omega
    obtain ⟨-, -, -, -, -, -, e0, e1, e2, -⟩ := grid_facts ⟨8 * (i 0).val + 7, hlt⟩
    have ev : (⟨8 * (i 0).val + 7, hlt⟩ : Fin cfg0.N).val = 8 * (i 0).val + 7 := rfl
    refine ⟨⟨8 * (i 0).val + 7, hlt⟩, (flush0_2 _).mpr (by rw [ev]; omega), ?_⟩
    show i ∈ ((View.whole main_v0_0).slice (win0_2.rect ⟨8 * (i 0).val + 7, hlt⟩)).set
    rw [View.set_slice_whole, Rect.mem_set_unit]
    intro a
    match a with
    | ⟨0, _⟩ =>
      show win0_2.index ⟨8 * (i 0).val + 7, hlt⟩ (0 : Fin 3) * 1 ≤ (i 0).val
        ∧ (i 0).val < win0_2.index ⟨8 * (i 0).val + 7, hlt⟩ (0 : Fin 3) * 1 + 1
      rw [e0, ev]; omega
    | ⟨1, _⟩ =>
      show win0_2.index ⟨8 * (i 0).val + 7, hlt⟩ (1 : Fin 3) * 4096 ≤ (i 1).val
        ∧ (i 1).val < win0_2.index ⟨8 * (i 0).val + 7, hlt⟩ (1 : Fin 3) * 4096 + 4096
      rw [e1]; omega
    | ⟨2, _⟩ =>
      show win0_2.index ⟨8 * (i 0).val + 7, hlt⟩ (2 : Fin 3) * 1 ≤ (i 2).val
        ∧ (i 2).val < win0_2.index ⟨8 * (i 0).val + 7, hlt⟩ (2 : Fin 3) * 1 + 1
      rw [e2]; omega

/-- Every entry of the column array is written back by the point of its batch and tile. -/
theorem final_cols (c : Dev nD) : (dats m 0 c).arrAt 3 cfg0.N = colArr m c :=
  (dats m 0 c).arrAt_eq_of_cover 3 (colArr m c) (flushed_cols m c) fun i => by
    have hi0 : (i 0).val < 4 := (i 0).isLt
    have hi1 : (i 1).val < 1 := (i 1).isLt
    have hi2 : (i 2).val < 4096 := (i 2).isLt
    have hlt : 8 * (i 0).val + (i 2).val / 512 < cfg0.N := by rw [show cfg0.N = 32 from N_0]; omega
    obtain ⟨-, -, -, -, -, -, -, -, -, e0, e1, e2⟩ := grid_facts ⟨8 * (i 0).val + (i 2).val / 512, hlt⟩
    have ev : (⟨8 * (i 0).val + (i 2).val / 512, hlt⟩ : Fin cfg0.N).val = 8 * (i 0).val + (i 2).val / 512 := rfl
    refine ⟨⟨8 * (i 0).val + (i 2).val / 512, hlt⟩, flush0_3 _, ?_⟩
    show i ∈ ((View.whole main_v0_1).slice (win0_3.rect ⟨8 * (i 0).val + (i 2).val / 512, hlt⟩)).set
    rw [View.set_slice_whole, Rect.mem_set_unit]
    intro a
    match a with
    | ⟨0, _⟩ =>
      show win0_3.index ⟨8 * (i 0).val + (i 2).val / 512, hlt⟩ (0 : Fin 3) * 1 ≤ (i 0).val
        ∧ (i 0).val < win0_3.index ⟨8 * (i 0).val + (i 2).val / 512, hlt⟩ (0 : Fin 3) * 1 + 1
      rw [e0, ev]; omega
    | ⟨1, _⟩ =>
      show win0_3.index ⟨8 * (i 0).val + (i 2).val / 512, hlt⟩ (1 : Fin 3) * 1 ≤ (i 1).val
        ∧ (i 1).val < win0_3.index ⟨8 * (i 0).val + (i 2).val / 512, hlt⟩ (1 : Fin 3) * 1 + 1
      rw [e1]; omega
    | ⟨2, _⟩ =>
      show win0_3.index ⟨8 * (i 0).val + (i 2).val / 512, hlt⟩ (2 : Fin 3) * 512 ≤ (i 2).val
        ∧ (i 2).val < win0_3.index ⟨8 * (i 0).val + (i 2).val / 512, hlt⟩ (2 : Fin 3) * 512 + 512
      rw [e2, ev]; omega

end Chamfer.Kernel

end
-- ==== Proof.ChamferResult.lean ====
/-
  The kernel's result.

  After the region the two result arrays hold the row minima and the column minima; the host lines after it sum
  each, take the two means, add them, multiply by one and divide by four. So the result buffer ends at the loss of
  the row total and the column total, and the two argument arrays end as they began.
-/
import proofs.«175349_j14001593385464_1_alg».proof.Proof.ChamferRun

set_option maxRecDepth 16384

noncomputable section

open scoped BigOperators

open Idealize.ShloMosaic Idealize.ShloMosaic.TcCoe Idealize.SL.Sem
open Idealize.ShloMosaic.Pipeline (Dat)

namespace Chamfer.Kernel

open Cert.KernelIdeal Cert.KernelIdeal.Gen Idealize.ShloMosaic.ValueIdx Chamfer Chamfer.Tail

variable (m : (ℓ : Loc nD τ sig) → Buf (Elt Ideal) ℓ) (ρ : Dev nD → PrngReg)

/-- What the host lines after the region leave in the result buffer: the loss of the two totals. -/
theorem result_eq (c : Dev nD) :
    Pipeline.afterTail₀ cfgs (dats m) 0 (V0 m) [hostOps1] c main_v7
      = fun _ => loss (rowTotal (cloudX m c) (cloudY m c)) (colTotal (cloudX m c) (cloudY m c)) := by
  have hR : Pipeline.withArrays (cfgs 0).spec c (V0 m c) (fun w => (dats m 0 c).arrAt w (cfgs 0).N) (Proc.devRef .tc main_v0_0)
      = rowArr m c :=
    (Pipeline.withArrays_arr spec0 launch0.win.arr_inj c _ _ 2).trans (final_rows m c)
  have hC : Pipeline.withArrays (cfgs 0).spec c (V0 m c) (fun w => (dats m 0 c).arrAt w (cfgs 0).N) (Proc.devRef .tc main_v0_1)
      = colArr m c :=
    (Pipeline.withArrays_arr spec0 launch0.win.arr_inj c _ _ 3).trans (final_cols m c)
  unfold Pipeline.afterTail₀
  show StableHlo.after hostOps1 _ (Proc.devRef .tc main_v7) = _
  after_results
  refine (congrArg₂ (tail (F := Ideal)) hR hC).trans (funext fun i => ?_)
  refine (tail_apply (rowArr m c) (colArr m c) i).trans ?_
  unfold rowTotal colTotal
  rfl

/-- The run, read: the result at the loss of the row total and the column total, the two clouds unchanged. -/
theorem run : θ_run defs (onTc (τ := τ) (main (F := Ideal))) ⟨m, fun _ => 0, ρ⟩ fun r => ∀ c : Dev nD,
      r.2.mem ((c.tc : Thread nD τ).loc main_v7)
        = (fun _ => loss (rowTotal (cloudX m c) (cloudY m c)) (colTotal (cloudX m c) (cloudY m c)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v7 (Pipeline.mem_restRefs_of main_v7 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Chamfer.Kernel

end
-- ==== Proof.lean ====
/-
  The bidirectional chamfer loss: the tiled kernel and the plain reference compute the same number.

  For two clouds of 4096 points in 128 coordinates (four batches) both programs form the clipped squared distance
  D(i, j) = min 100 (max 0 ((|x_i|^2 + |y_j|^2) - 2 <x_i, y_j>)) of every pair, take the least D(i, j) over j for
  each i and over i for each j, average each family of minima, add the two averages, multiply by one and divide by
  four. Over the extended reals a change of float format is the identity and a sum or a minimum does not depend on
  how it is grouped, so the differences between the programs are only these:

    * the kernel holds a whole batch of the first cloud and streams the second in eight tiles of 512 points; its
      column minima are complete at every tile, its row minima are a running minimum over the tiles, started from
      plus infinity at the first tile of a batch (ChamferRun: an induction over the 32 grid points, stated by what
      lies below the running value, so that eight tiles of 512 need never be re-indexed as 4096);
    * the kernel's minima live in arrays of shape [4, 4096, 1] and [4, 1, 4096], the reference's in [4, 4096]; a sum
      over all of either is the same double sum (ChamferTail, ChamferRef);
    * the kernel adds the mean of the row minima to the mean of the column minima, the reference the other way
      round: addition commutes.

  No step needs the inputs to be finite. The kernel's idealization rewrote nothing, so `preserves` is trivial; the
  three frames are the generated ones (the reference's is its generated run with the result dropped).
-/
import proofs.«175349_j14001593385464_1_alg».proof.Defs
import proofs.«175349_j14001593385464_1_alg».proof.Proof.Gen.Kernel
import proofs.«175349_j14001593385464_1_alg».proof.Proof.Gen.Kernel.Skeleton
import proofs.«175349_j14001593385464_1_alg».proof.Proof.Gen.Kernel.Launch
import proofs.«175349_j14001593385464_1_alg».proof.Proof.Gen.Kernel.Points
import proofs.«175349_j14001593385464_1_alg».proof.Proof.Gen.Kernel.Frame
import proofs.«175349_j14001593385464_1_alg».proof.Proof.Gen.KernelIdeal
import proofs.«175349_j14001593385464_1_alg».proof.Proof.Gen.KernelIdeal.Skeleton
import proofs.«175349_j14001593385464_1_alg».proof.Proof.Gen.KernelIdeal.Launch
import proofs.«175349_j14001593385464_1_alg».proof.Proof.Gen.KernelIdeal.Points
import proofs.«175349_j14001593385464_1_alg».proof.Proof.Gen.KernelIdeal.Frame
import proofs.«175349_j14001593385464_1_alg».proof.Proof.Gen.ReferenceIdeal
import proofs.«175349_j14001593385464_1_alg».proof.Proof.Gen.Pre_finite_inputs
import proofs.«175349_j14001593385464_1_alg».proof.Proof.Gen.ReferenceIdeal.Run
import proofs.«175349_j14001593385464_1_alg».proof.Proof.Gen.ReferenceIdeal.Read
import proofs.«175349_j14001593385464_1_alg».proof.Proof.ChamferSpec
import proofs.«175349_j14001593385464_1_alg».proof.Proof.ChamferRef
import proofs.«175349_j14001593385464_1_alg».proof.Proof.ChamferResult
import Idealize.ShloMosaic.Adequacy
import Idealize.ShloMosaic.Init

noncomputable section

namespace Cert.Proof

open Idealize.ShloMosaic Idealize.SL.Sem Chamfer

/-- The word-level kernel runs and keeps its arguments: the generated frame. -/
theorem frame_kernel : Cert.frame_Kernel (hKernel := Cert.Kernel.Gen.facts) (hPre_finite_inputs := Cert.Pre_finite_inputs.Gen.facts) :=
  fun m ρ _ => Cert.Kernel.Gen.frame m ρ

/-- So does its idealization. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- The reference runs and keeps its arguments: its generated run, the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From clouds that agree, the kernel ends at the loss of (row total, column total) and the reference at the loss of
    (column total, row total): the same extended real. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c _ => loss (rowTotal (Chamfer.Kernel.cloudX m c) (Chamfer.Kernel.cloudY m c))
    (colTotal (Chamfer.Kernel.cloudX m c) (Chamfer.Kernel.cloudY m c)), Chamfer.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Chamfer.Ref.result_eq, (hagree c).1, (hagree c).2]
  funext _
  exact loss_comm _ _

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
